-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v18) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x1x28x28 : Shape := ⟨4, ![32768, 1, 28, 28]⟩
abbrev S128x784 : Shape := ⟨2, ![128, 784]⟩
abbrev S128 : Shape := ⟨1, ![128]⟩
abbrev S256x128 : Shape := ⟨2, ![256, 128]⟩
abbrev S256 : Shape := ⟨1, ![256]⟩
abbrev S10x256 : Shape := ⟨2, ![10, 256]⟩
abbrev S10 : Shape := ⟨1, ![10]⟩
abbrev S_ : Shape := ⟨0, ![]⟩

class Facts : Prop where
  bcast_S_S32768x1x28x28 : S_.BroadcastsInDim S32768x1x28x28 (![] : Fin 0 → Fin S32768x1x28x28.rank)
  reducesTo_S32768x1x28x28_S_d0_1_2_3 : S32768x1x28x28.ReducesTo [0, 1, 2, 3] S_
  h_S_ : 0 < S_.numel
  bcast_S_S128x784 : S_.BroadcastsInDim S128x784 (![] : Fin 0 → Fin S128x784.rank)
  reducesTo_S128x784_S_d0_1 : S128x784.ReducesTo [0, 1] S_
  bcast_S_S128 : S_.BroadcastsInDim S128 (![] : Fin 0 → Fin S128.rank)
  reducesTo_S128_S_d0 : S128.ReducesTo [0] S_
  bcast_S_S256x128 : S_.BroadcastsInDim S256x128 (![] : Fin 0 → Fin S256x128.rank)
  reducesTo_S256x128_S_d0_1 : S256x128.ReducesTo [0, 1] S_
  bcast_S_S256 : S_.BroadcastsInDim S256 (![] : Fin 0 → Fin S256.rank)
  reducesTo_S256_S_d0 : S256.ReducesTo [0] S_
  bcast_S_S10x256 : S_.BroadcastsInDim S10x256 (![] : Fin 0 → Fin S10x256.rank)
  reducesTo_S10x256_S_d0_1 : S10x256.ReducesTo [0, 1] S_
  bcast_S_S10 : S_.BroadcastsInDim S10 (![] : Fin 0 → Fin S10.rank)
  reducesTo_S10_S_d0 : S10.ReducesTo [0] S_

variable [Facts]

def fn_part1 {F : FTy → Type} [FloatOps F] (main_arg4 : FVec F S256 .f32) (main_arg5 : FVec F S10x256 .f32) (main_arg6 : FVec F S10 .f32) (main_v13 : IVec S_ 1) (main_v16 : IVec S256x128 1) : IVec S_ 1 :=
  let main_c_5 : IVec S_ 1 := constantI S_ 1 1#1
  let main_v17 : IVec S_ 1 := (fun x v => Host.reduce IntOp.andi x v reducesTo_S256x128_S_d0_1 h_S_) main_v16 main_c_5
  let main_v18 : IVec S_ 1 := andi main_v13 main_v17
  let main_v19 : FVec F S256 .f32 := Host.absf main_arg4
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S10x256 .f32 := Host.absf main_arg5
  let main_cst_8 : FVec F S_ .f32 := constant S_ .f32 0x7F800000#32
  let main_v25 : FVec F S10x256 .f32 := broadcastInDim S10x256 ![] bcast_S_S10x256 main_cst_8
  let main_v26 : IVec S10x256 1 := cmpf .olt main_v24 main_v25
  let main_c_9 : IVec S_ 1 := constantI S_ 1 1#1
  let main_v27 : IVec S_ 1 := (fun x v => Host.reduce IntOp.andi x v reducesTo_S10x256_S_d0_1 h_S_) main_v26 main_c_9
  let main_v28 : IVec S_ 1 := andi main_v23 main_v27
  let main_v29 : FVec F S10 .f32 := Host.absf main_arg6
  let main_cst_10 : FVec F S_ .f32 := constant S_ .f32 0x7F800000#32
  let main_v30 : FVec F S10 .f32 := broadcastInDim S10 ![] bcast_S_S10 main_cst_10
  let main_v31 : IVec S10 1 := cmpf .olt main_v29 main_v30
  let main_c_11 : IVec S_ 1 := constantI S_ 1 1#1
  let main_v32 : IVec S_ 1 := (fun x v => Host.reduce IntOp.andi x v reducesTo_S10_S_d0 h_S_) main_v31 main_c_11
  let main_v33 : IVec S_ 1 := andi main_v28 main_v32
  main_v33

def fn {F : FTy → Type} [FloatOps F] (main_arg0 : FVec F S32768x1x28x28 .f32) (main_arg1 : FVec F S128x784 .f32) (main_arg2 : FVec F S128 .f32) (main_arg3 : FVec F S256x128 .f32) (main_arg4 : FVec F S256 .f32) (main_arg5 : FVec F S10x256 .f32) (main_arg6 : FVec F S10 .f32) : IVec S_ 1 :=
  let main_v0 : FVec F S32768x1x28x28 .f32 := Host.absf main_arg0
  let main_cst : FVec F S_ .f32 := constant S_ .f32 0x7F800000#32
  let main_v1 : FVec F S32768x1x28x28 .f32 := broadcastInDim S32768x1x28x28 ![] bcast_S_S32768x1x28x28 main_cst
  let main_v2 : IVec S32768x1x28x28 1 := cmpf .olt main_v0 main_v1
  let main_c : IVec S_ 1 := constantI S_ 1 1#1
  let main_v3 : IVec S_ 1 := (fun x v => Host.reduce IntOp.andi x v reducesTo_S32768x1x28x28_S_d0_1_2_3 h_S_) main_v2 main_c
  let main_v4 : FVec F S128x784 .f32 := Host.absf main_arg1
  let main_cst_0 : FVec F S_ .f32 := constant S_ .f32 0x7F800000#32
  let main_v5 : FVec F S128x784 .f32 := broadcastInDim S128x784 ![] bcast_S_S128x784 main_cst_0
  let main_v6 : IVec S128x784 1 := cmpf .olt main_v4 main_v5
  let main_c_1 : IVec S_ 1 := constantI S_ 1 1#1
  let main_v7 : IVec S_ 1 := (fun x v => Host.reduce IntOp.andi x v reducesTo_S128x784_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S256x128 .f32 := Host.absf main_arg3
  let main_cst_4 : FVec F S_ .f32 := constant S_ .f32 0x7F800000#32
  let main_v15 : FVec F S256x128 .f32 := broadcastInDim S256x128 ![] bcast_S_S256x128 main_cst_4
  let main_v16 : IVec S256x128 1 := cmpf .olt main_v14 main_v15
  fn_part1 (F := F) main_arg4 main_arg5 main_arg6 main_v13 main_v16
-- ==== Kernel.lean ====
abbrev S32768x1x28x28 : Shape := ⟨4, ![32768, 1, 28, 28]⟩
abbrev S128x784 : Shape := ⟨2, ![128, 784]⟩
abbrev S128 : Shape := ⟨1, ![128]⟩
abbrev S256x128 : Shape := ⟨2, ![256, 128]⟩
abbrev S256 : Shape := ⟨1, ![256]⟩
abbrev S10x256 : Shape := ⟨2, ![10, 256]⟩
abbrev S10 : Shape := ⟨1, ![10]⟩
abbrev S32768x784 : Shape := ⟨2, ![32768, 784]⟩
abbrev S1x128 : Shape := ⟨2, ![1, 128]⟩
abbrev S1x256 : Shape := ⟨2, ![1, 256]⟩
abbrev S1x10 : Shape := ⟨2, ![1, 10]⟩
abbrev S32768x10 : Shape := ⟨2, ![32768, 10]⟩
abbrev S2048x784 : Shape := ⟨2, ![2048, 784]⟩
abbrev S2048x10 : Shape := ⟨2, ![2048, 10]⟩
abbrev S784x128 : Shape := ⟨2, ![784, 128]⟩
abbrev S2048x128 : Shape := ⟨2, ![2048, 128]⟩
abbrev S128x256 : Shape := ⟨2, ![128, 256]⟩
abbrev S2048x256 : Shape := ⟨2, ![2048, 256]⟩
abbrev S256x10 : Shape := ⟨2, ![256, 10]⟩
abbrev S2048 : Shape := ⟨1, ![2048]⟩
abbrev S2048x1 : Shape := ⟨2, ![2048, 1]⟩

abbrev nBuf : Space → Nat
  | .hbm => 15
  | .vmem => 10
  | .smem => 0
  | _ => 0

abbrev bufTy : (tb : Table) → Fin (tcTables nBuf tb) → BufTy
  | .hbm, ⟨0, _⟩ => ⟨S32768x1x28x28, .f32⟩
  | .hbm, ⟨1, _⟩ => ⟨S128x784, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S10x256, .f32⟩
  | .hbm, ⟨6, _⟩ => ⟨S10, .f32⟩
  | .hbm, ⟨7, _⟩ => ⟨S32768x784, .f32⟩
  | .hbm, ⟨8, _⟩ => ⟨S128x784, .bf16⟩
  | .hbm, ⟨9, _⟩ => ⟨S256x128, .bf16⟩
  | .hbm, ⟨10, _⟩ => ⟨S10x256, .bf16⟩
  | .hbm, ⟨11, _⟩ => ⟨S1x128, .f32⟩
  | .hbm, ⟨12, _⟩ => ⟨S1x256, .f32⟩
  | .hbm, ⟨13, _⟩ => ⟨S1x10, .f32⟩
  | .hbm, ⟨14, _⟩ => ⟨S32768x10, .f32⟩
  | .local _ .vmem, ⟨0, _⟩ => ⟨S2048x784, .f32⟩
  | .local _ .vmem, ⟨1, _⟩ => ⟨S2048x784, .f32⟩
  | .local _ .vmem, ⟨2, _⟩ => ⟨S128x784, .bf16⟩
  | .local _ .vmem, ⟨3, _⟩ => ⟨S1x128, .f32⟩
  | .local _ .vmem, ⟨4, _⟩ => ⟨S256x128, .bf16⟩
  | .local _ .vmem, ⟨5, _⟩ => ⟨S1x256, .f32⟩
  | .local _ .vmem, ⟨6, _⟩ => ⟨S10x256, .bf16⟩
  | .local _ .vmem, ⟨7, _⟩ => ⟨S1x10, .f32⟩
  | .local _ .vmem, ⟨8, _⟩ => ⟨S2048x10, .f32⟩
  | .local _ .vmem, ⟨9, _⟩ => ⟨S2048x10, .f32⟩
  | _, _ => ⟨S32768x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x784 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x784 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S10x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x10 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2048x10 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S32768x1x28x28_S32768x784 : S32768x1x28x28.ShapeCasts S32768x784
  bitsLt_bf16_f32 : FTy.bits .bf16 < FTy.bits .f32
  shapeCasts_S128_S1x128 : S128.ShapeCasts S1x128
  shapeCasts_S256_S1x256 : S256.ShapeCasts S1x256
  shapeCasts_S10_S1x10 : S10.ShapeCasts S1x10
  inb_S2048x784_S2048x784_0_0 : ∀ a, (![0, 0] : Fin 2 → Nat) a + S2048x784.size a ≤ S2048x784.size a
  h_S2048x784 : 0 < S2048x784.numel
  shapeCasts_S2048x784_S2048x784 : S2048x784.ShapeCasts S2048x784
  inb_S128x784_S128x784_0_0 : ∀ a, (![0, 0] : Fin 2 → Nat) a + S128x784.size a ≤ S128x784.size a
  h_S128x784 : 0 < S128x784.numel
  shapeCasts_S128x784_S128x784 : S128x784.ShapeCasts S128x784
  transposes_S128x784_p1_0_S784x128 : S128x784.Transposes [1, 0] S784x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2048x128 : S1x128.Broadcasts S2048x128
  inb_S256x128_S256x128_0_0 : ∀ a, (![0, 0] : Fin 2 → Nat) a + S256x128.size a ≤ S256x128.size a
  h_S256x128 : 0 < S256x128.numel
  shapeCasts_S256x128_S256x128 : S256x128.ShapeCasts S256x128
  transposes_S256x128_p1_0_S128x256 : S256x128.Transposes [1, 0] S128x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S10x256_S10x256_0_0 : ∀ a, (![0, 0] : Fin 2 → Nat) a + S10x256.size a ≤ S10x256.size a
  h_S10x256 : 0 < S10x256.numel
  shapeCasts_S10x256_S10x256 : S10x256.ShapeCasts S10x256
  transposes_S10x256_p1_0_S256x10 : S10x256.Transposes [1, 0] S256x10
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S2048x10 : S1x10.Broadcasts S2048x10
  reduces_S2048x10_S2048 : S2048x10.Reduces [1] S2048
  shapeCasts_S2048_S2048x1 : S2048.ShapeCasts S2048x1
  broadcasts_S2048x1_S2048x10 : S2048x1.Broadcasts S2048x10
  inb_S2048x10_S2048x10_0_0 : ∀ a, (![0, 0] : Fin 2 → Nat) a + S2048x10.size a ≤ S2048x10.size a
  h_S2048x10 : 0 < S2048x10.numel
  dot_S2048x784_S784x128_S2048x128_1_0_0_1_n_n_wf : DotDims.WF S2048x784 S784x128 S2048x128 [1] [0] [0] [1] [] []
  dot_S2048x128_S128x256_S2048x256_1_0_0_1_n_n_wf : DotDims.WF S2048x128 S128x256 S2048x256 [1] [0] [0] [1] [] []
  dot_S2048x256_S256x10_S2048x10_1_0_0_1_n_n_wf : DotDims.WF S2048x256 S256x10 S2048x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x784.size a ≤ S32768x784.size a
  hwx0_0 : ∀ i : grid0.Coords, EltTy.bits .f32 = 32 ∨ (Rect.block (s := S32768x784) S2048x784.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x784.size a ≤ S128x784.size a
  hwx0_1 : ∀ i : grid0.Coords, EltTy.bits .bf16 = 32 ∨ (Rect.block (s := S128x784) S128x784.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x128.size a ≤ S256x128.size a
  hwx0_3 : ∀ i : grid0.Coords, EltTy.bits .bf16 = 32 ∨ (Rect.block (s := S256x128) S256x128.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S10x256.size a ≤ S10x256.size a
  hwx0_5 : ∀ i : grid0.Coords, EltTy.bits .bf16 = 32 ∨ (Rect.block (s := S10x256) S10x256.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x10.size a ≤ S1x10.size a
  hwx0_6 : ∀ i : grid0.Coords, EltTy.bits .f32 = 32 ∨ (Rect.block (s := S1x10) S1x10.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2048x10.size a ≤ S32768x10.size a
  hwx0_7 : ∀ i : grid0.Coords, EltTy.bits .f32 = 32 ∨ (Rect.block (s := S32768x10) S2048x10.size (cc0_transform_7 i) (hinb0_7 i)).WholeWords (EltTy.packing .f32)

variable [Facts₀]

def dot_S2048x784_S784x128_S2048x128_1_0_0_1_n_n : DotDims S2048x784 S784x128 S2048x128 where
  lhsContracting := [1]
  rhsContracting := [0]
  lhsNonContracting := [0]
  rhsNonContracting := [1]
  lhsBatch := []
  rhsBatch := []
  wf := dot_S2048x784_S784x128_S2048x128_1_0_0_1_n_n_wf
def dot_S2048x128_S128x256_S2048x256_1_0_0_1_n_n : DotDims S2048x128 S128x256 S2048x256 where
  lhsContracting := [1]
  rhsContracting := [0]
  lhsNonContracting := [0]
  rhsNonContracting := [1]
  lhsBatch := []
  rhsBatch := []
  wf := dot_S2048x128_S128x256_S2048x256_1_0_0_1_n_n_wf
def dot_S2048x256_S256x10_S2048x10_1_0_0_1_n_n : DotDims S2048x256 S256x10 S2048x10 where
  lhsContracting := [1]
  rhsContracting := [0]
  lhsNonContracting := [0]
  rhsNonContracting := [1]
  lhsBatch := []
  rhsBatch := []
  wf := dot_S2048x256_S256x10_S2048x10_1_0_0_1_n_n_wf

abbrev win0_0 : Pipeline.Window sig grid0 :=
  Pipeline.Window.ofSpec (Memref.whole main_v0) S2048x784.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S128x784.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v4) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S256x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S10x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v6) S1x10.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v7) S2048x10.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S32768x1x28x28 : Shape := ⟨4, ![32768, 1, 28, 28]⟩
abbrev S128x784 : Shape := ⟨2, ![128, 784]⟩
abbrev S128 : Shape := ⟨1, ![128]⟩
abbrev S256x128 : Shape := ⟨2, ![256, 128]⟩
abbrev S256 : Shape := ⟨1, ![256]⟩
abbrev S10x256 : Shape := ⟨2, ![10, 256]⟩
abbrev S10 : Shape := ⟨1, ![10]⟩
abbrev S32768x784 : Shape := ⟨2, ![32768, 784]⟩
abbrev S784x128 : Shape := ⟨2, ![784, 128]⟩
abbrev S32768x128 : Shape := ⟨2, ![32768, 128]⟩
abbrev S1x128 : Shape := ⟨2, ![1, 128]⟩
abbrev S_ : Shape := ⟨0, ![]⟩
abbrev S128x256 : Shape := ⟨2, ![128, 256]⟩
abbrev S32768x256 : Shape := ⟨2, ![32768, 256]⟩
abbrev S1x256 : Shape := ⟨2, ![1, 256]⟩
abbrev S256x10 : Shape := ⟨2, ![256, 10]⟩
abbrev S32768x10 : Shape := ⟨2, ![32768, 10]⟩
abbrev S1x10 : Shape := ⟨2, ![1, 10]⟩
abbrev S32768 : Shape := ⟨1, ![32768]⟩
abbrev S32768x1 : Shape := ⟨2, ![32768, 1]⟩

abbrev nBuf : Space → Nat
  | .hbm => 44
  | .vmem => 0
  | .smem => 0
  | _ => 0

abbrev bufTy : (tb : Table) → Fin (tcTables nBuf tb) → BufTy
  | .hbm, ⟨0, _⟩ => ⟨S32768x1x28x28, .f32⟩
  | .hbm, ⟨1, _⟩ => ⟨S128x784, .f32⟩
  | .hbm, ⟨2, _⟩ => ⟨S128, .f32⟩
  | .hbm, ⟨3, _⟩ => ⟨S256x128, .f32⟩
  | .hbm, ⟨4, _⟩ => ⟨S256, .f32⟩
  | .hbm, ⟨5, _⟩ => ⟨S10x256, .f32⟩
  | .hbm, ⟨6, _⟩ => ⟨S10, .f32⟩
  | .hbm, ⟨7, _⟩ => ⟨S32768x784, .f32⟩
  | .hbm, ⟨8, _⟩ => ⟨S784x128, .f32⟩
  | .hbm, ⟨9, _⟩ => ⟨S32768x128, .f32⟩
  | .hbm, ⟨10, _⟩ => ⟨S1x128, .f32⟩
  | .hbm, ⟨11, _⟩ => ⟨S32768x128, .f32⟩
  | .hbm, ⟨12, _⟩ => ⟨S32768x128, .f32⟩
  | .hbm, ⟨13, _⟩ => ⟨S_, .f32⟩
  | .hbm, ⟨14, _⟩ => ⟨S32768x128, .f32⟩
  | .hbm, ⟨15, _⟩ => ⟨S32768x128, .f32⟩
  | .hbm, ⟨16, _⟩ => ⟨S128x256, .f32⟩
  | .hbm, ⟨17, _⟩ => ⟨S32768x256, .f32⟩
  | .hbm, ⟨18, _⟩ => ⟨S1x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S256x10, .f32⟩
  | .hbm, ⟨25, _⟩ => ⟨S32768x10, .f32⟩
  | .hbm, ⟨26, _⟩ => ⟨S1x10, .f32⟩
  | .hbm, ⟨27, _⟩ => ⟨S32768x10, .f32⟩
  | .hbm, ⟨28, _⟩ => ⟨S32768x10, .f32⟩
  | .hbm, ⟨29, _⟩ => ⟨S_, .f32⟩
  | .hbm, ⟨30, _⟩ => ⟨S32768, .f32⟩
  | .hbm, ⟨31, _⟩ => ⟨S_, .f32⟩
  | .hbm, ⟨32, _⟩ => ⟨S32768, .f32⟩
  | .hbm, ⟨33, _⟩ => ⟨S32768, .f32⟩
  | .hbm, ⟨34, _⟩ => ⟨S32768x1, .f32⟩
  | .hbm, ⟨35, _⟩ => ⟨S32768x10, .f32⟩
  | .hbm, ⟨36, _⟩ => ⟨S32768x10, .f32⟩
  | .hbm, ⟨37, _⟩ => ⟨S32768x10, .f32⟩
  | .hbm, ⟨38, _⟩ => ⟨S_, .f32⟩
  | .hbm, ⟨39, _⟩ => ⟨S32768, .f32⟩
  | .hbm, ⟨40, _⟩ => ⟨S32768x1, .f32⟩
  | .hbm, ⟨41, _⟩ => ⟨S32768x1, .f32⟩
  | .hbm, ⟨42, _⟩ => ⟨S32768x10, .f32⟩
  | .hbm, ⟨43, _⟩ => ⟨S32768x10, .f32⟩
  | _, _ => ⟨S32768x1x28x28, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_call0_cst : Ref sig .tc := ⟨.hbm, 13, rfl⟩
abbrev main_call0_v0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_cst : Ref sig .tc := ⟨.hbm, 21, rfl⟩
abbrev main_call1_v0 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_call2_cst : Ref sig .tc := ⟨.hbm, 29, rfl⟩
abbrev main_call2_v0 : Ref sig .tc := ⟨.hbm, 30, rfl⟩
abbrev main_call2_cst_0 : Ref sig .tc := ⟨.hbm, 31, rfl⟩
abbrev main_call2_v1 : Ref sig .tc := ⟨.hbm, 32, rfl⟩
abbrev main_call2_v2 : Ref sig .tc := ⟨.hbm, 33, rfl⟩
abbrev main_call2_v3 : Ref sig .tc := ⟨.hbm, 34, rfl⟩
abbrev main_call2_v4 : Ref sig .tc := ⟨.hbm, 35, rfl⟩
abbrev main_call2_v5 : Ref sig .tc := ⟨.hbm, 36, rfl⟩
abbrev main_call2_v6 : Ref sig .tc := ⟨.hbm, 37, rfl⟩
abbrev main_call2_cst_1 : Ref sig .tc := ⟨.hbm, 38, rfl⟩
abbrev main_call2_v7 : Ref sig .tc := ⟨.hbm, 39, rfl⟩
abbrev main_call2_v8 : Ref sig .tc := ⟨.hbm, 40, rfl⟩
abbrev main_call2_v9 : Ref sig .tc := ⟨.hbm, 41, rfl⟩
abbrev main_call2_v10 : Ref sig .tc := ⟨.hbm, 42, rfl⟩
abbrev main_v18 : Ref sig .tc := ⟨.hbm, 43, rfl⟩

abbrev nD : Nat := 1
abbrev τ : Topo := Topo.v7x

variable {F : FTy → Type} [FloatOps F]

class Facts₀ : Prop where
  shapeCasts_S32768x1x28x28_S32768x784 : S32768x1x28x28.ShapeCasts S32768x784
  transposes_S128x784_S784x128_1_0 : S128x784.Transposes [1, 0] S784x128
  bcast_S128_S1x128_1 : S128.BroadcastsInDim S1x128 (![1] : Fin 1 → Fin S1x128.rank)
  bcast_S1x128_S32768x128_0_1 : S1x128.BroadcastsInDim S32768x128 (![0, 1] : Fin 2 → Fin S32768x128.rank)
  bcast_S_S32768x128 : S_.BroadcastsInDim S32768x128 (![] : Fin 0 → Fin S32768x128.rank)
  transposes_S256x128_S128x256_1_0 : S256x128.Transposes [1, 0] S128x256
  bcast_S256_S1x256_1 : S256.BroadcastsInDim S1x256 (![1] : Fin 1 → Fin S1x256.rank)
  bcast_S1x256_S32768x256_0_1 : S1x256.BroadcastsInDim S32768x256 (![0, 1] : Fin 2 → Fin S32768x256.rank)
  bcast_S_S32768x256 : S_.BroadcastsInDim S32768x256 (![] : Fin 0 → Fin S32768x256.rank)
  transposes_S10x256_S256x10_1_0 : S10x256.Transposes [1, 0] S256x10
  bcast_S10_S1x10_1 : S10.BroadcastsInDim S1x10 (![1] : Fin 1 → Fin S1x10.rank)
  bcast_S1x10_S32768x10_0_1 : S1x10.BroadcastsInDim S32768x10 (![0, 1] : Fin 2 → Fin S32768x10.rank)
  reducesTo_S32768x10_S32768_d1 : S32768x10.ReducesTo [1] S32768
  h_S_ : 0 < S_.numel
  bcast_S_S32768 : S_.BroadcastsInDim S32768 (![] : Fin 0 → Fin S32768.rank)
  bcast_S32768_S32768x1_0 : S32768.BroadcastsInDim S32768x1 (![0] : Fin 1 → Fin S32768x1.rank)
  bcast_S32768x1_S32768x10_0_1 : S32768x1.BroadcastsInDim S32768x10 (![0, 1] : Fin 2 → Fin S32768x10.rank)
  dot_S32768x784_S784x128_S32768x128_1_0_0_1_n_n_wf : DotDims.WF S32768x784 S784x128 S32768x128 [1] [0] [0] [1] [] []
  dot_S32768x128_S128x256_S32768x256_1_0_0_1_n_n_wf : DotDims.WF S32768x128 S128x256 S32768x256 [1] [0] [0] [1] [] []
  dot_S32768x256_S256x10_S32768x10_1_0_0_1_n_n_wf : DotDims.WF S32768x256 S256x10 S32768x10 [1] [0] [0] [1] [] []

variable [Facts₀]

def dot_S32768x784_S784x128_S32768x128_1_0_0_1_n_n : DotDims S32768x784 S784x128 S32768x128 where
  lhsContracting := [1]
  rhsContracting := [0]
  lhsNonContracting := [0]
  rhsNonContracting := [1]
  lhsBatch := []
  rhsBatch := []
  wf := dot_S32768x784_S784x128_S32768x128_1_0_0_1_n_n_wf
def dot_S32768x128_S128x256_S32768x256_1_0_0_1_n_n : DotDims S32768x128 S128x256 S32768x256 where
  lhsContracting := [1]
  rhsContracting := [0]
  lhsNonContracting := [0]
  rhsNonContracting := [1]
  lhsBatch := []
  rhsBatch := []
  wf := dot_S32768x128_S128x256_S32768x256_1_0_0_1_n_n_wf
def dot_S32768x256_S256x10_S32768x10_1_0_0_1_n_n : DotDims S32768x256 S256x10 S32768x10 where
  lhsContracting := [1]
  rhsContracting := [0]
  lhsNonContracting := [0]
  rhsNonContracting := [1]
  lhsBatch := []
  rhsBatch := []
  wf := dot_S32768x256_S256x10_S32768x10_1_0_0_1_n_n_wf

class Facts : Prop extends Facts₀ where

variable [Facts]
-- ==== Proof.LibPlainDot.lean ====
import Idealize.ShloMosaic.PureOps.Ideal.Laws
import Idealize.ShloMosaic.Lib.ValueIdx

noncomputable section

open scoped BigOperators

/-! # A plain two-dimensional product read at an entry

For the dimension numbers "rows by contraction, contraction by columns" (`DotDims.plain M K N`), entry `(r, c)` of a
matrix product into a zero accumulator, and of a host `dot_general`, is `∑ k : Fin K, l (r, k) * r (k, c)` on the
extended reals. Stated for any record `d` equal to the plain one, so that a printed record is passed with `rfl`. -/

namespace Cert.PlainDot

open Idealize.ShloMosaic Idealize.ShloMosaic.ValueIdx

variable {M K N : ℕ}

/-- The contraction's sum over the record's own index type is the sum over `Fin K` with the operands read at
    `(r, k)` and `(k, c)`. -/
theorem sum_plain (d : DotDims ⟨2, ![M, K]⟩ ⟨2, ![K, N]⟩ ⟨2, ![M, N]⟩) (hd : d = DotDims.plain M K N)
    (l : (⟨2, ![M, K]⟩ : Shape).Idx → EReal) (r : (⟨2, ![K, N]⟩ : Shape).Idx → EReal) (j : (⟨2, ![M, N]⟩ : Shape).Idx) :
    ∑ k : d.contr.Idx, l (d.lhsIdx j k) * r (d.rhsIdx j k) = ∑ k : Fin K, l (ix2 (j 0) k) * r (ix2 k (j 1)) := by
  subst hd
  rw [← Equiv.sum_comp (contrEquiv1 (DotDims.plain M K N) K rfl rfl).symm]
  refine Finset.sum_congr rfl fun k _ => ?_
  have hl : (DotDims.plain M K N).lhsIdx j ((contrEquiv1 (DotDims.plain M K N) K rfl rfl).symm k) = ix2 (j 0) k := by
    funext a
    match a with
    | ⟨0, _⟩ => exact Fin.ext rfl
    | ⟨1, _⟩ =>
      apply Fin.ext
      exact ((DotDims.plain M K N).lhsIdx_val_of_single (cl := 1) rfl j _).trans
        (contrEquiv1_symm_val (DotDims.plain M K N) K rfl rfl k)
  have hr : (DotDims.plain M K N).rhsIdx j ((contrEquiv1 (DotDims.plain M K N) K rfl rfl).symm k) = ix2 k (j 1) := by
    funext a
    match a with
    | ⟨0, _⟩ =>
      apply Fin.ext
      exact ((DotDims.plain M K N).rhsIdx_val_of_single (cr := 0) rfl j _).trans
        (contrEquiv1_symm_val (DotDims.plain M K N) K rfl rfl k)
    | ⟨1, _⟩ => exact Fin.ext rfl
  rw [hl, hr]
  rfl

/-- A matrix-unit product into the zero accumulator, at an entry. -/
theorem matmul_zero_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (j : (⟨2, ![M, N]⟩ : Shape).Idx) :
    FloatOps.matmul d prec l r (constant ⟨2, ![M, N]⟩ .f32 0x00000000#32) j = ∑ k : Fin K, l (ix2 (j 0) k) * r (ix2 k (j 1)) := by
  rw [Ideal.matmul_constant_zero_apply]; exact sum_plain d hd l r j

/-- A host `dot_general`, at an entry. -/
theorem dotGeneral_apply {φ₁ φ₂ : FTy} (d : DotDims ⟨2, ![M, K]⟩ ⟨2, ![K, N]⟩ ⟨2, ![M, N]⟩) (hd : d = DotDims.plain M K N)
    (prec : Option ContractPrecision) (sched : HostSchedule) (l : FVec Ideal ⟨2, ![M, K]⟩ φ₁) (r : FVec Ideal ⟨2, ![K, N]⟩ φ₂)
    (j : (⟨2, ![M, N]⟩ : Shape).Idx) :
    FloatOps.dotGeneral d prec sched l r j = ∑ k : Fin K, l (ix2 (j 0) k) * r (ix2 k (j 1)) := by
  rw [Ideal.dotGeneral_apply]; exact sum_plain d hd l r j

end Cert.PlainDot

end
-- ==== Proof.LibKeepdims.lean ====
/-
  Column and unit-axis layouts read at an index, by coordinates.

  A vector of `a` entries viewed as a column `[a, 1]`, a column `[a, 1]` broadcast across `b` columns, a
  `[1, 1, a]` block viewed as a vector, and an `[a, b]` array given a middle unit axis: each only re-addresses its operand, and each is read here at an index written
  by its coordinates, so that a chain of them rewrites to the operand at one explicit index. They stand beside the
  library's row forms (`[a]` as `[1, a]`, a row `[1, b]` broadcast down `a` rows).
-/
import Idealize.ShloMosaic.Lib.Pipeline.Value
import Idealize.ShloMosaic.Lib.ValueIdx

namespace Cert.Keepdims

open Idealize.ShloMosaic Idealize.ShloMosaic.ValueIdx

variable {α : Type}

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A `[1, 1, a]` array cast to `[a]` reads, at `i`, the operand at `(0, 0, i)`. -/
theorem shapeCast_11a_a_apply {a : ℕ} (x : (⟨3, ![1, 1, a]⟩ : Shape).Idx → α) (h : (⟨3, ![1, 1, a]⟩ : Shape).ShapeCasts ⟨1, ![a]⟩)
    (i : Fin a) : shapeCast ⟨1, ![a]⟩ x h (ix1 i) = x (ix3 (0 : Fin 1) (0 : Fin 1) i) :=
  shapeCast_apply x h _ _ (by
    rw [Shape.rowMajor_val_three, Shape.rowMajor_val_one]
    show (0 * 1 + 0) * a + i.val = i.val
    simp)

/-- An `[a, b]` array cast to `[a, 1, b]` reads, at `(i, u, j)`, the operand at `(i, j)`, whatever the unit coordinate `u`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Keepdims
-- ==== Proof.RowMlp.lean ====
/-
  A three-layer perceptron with a log-softmax head, ONE INPUT ROW at a time, on the extended reals.

  A dense layer sends a row `v` of `k` entries to the `n` entries `∑ i, v i * W j i + b j` (the weights are stored
  `[out, in]`, so the layer is `v · Wᵀ + b`); a rectifier takes the larger of each entry and the zero word's value; the
  head subtracts the row's largest entry `M` (the fold of `max` from the word of `-∞`), and then the logarithm of the
  sum of the exponentials of the shifted entries. Every output row of the network depends on its own input row and on
  the parameters only, so a program that runs the network on a block of rows and a program that runs it on all the
  rows at once compute the same row function: `Cert.RowMlp.net`.

  Below the definitions, each vector operation the two programs print is read at an entry `(p, j)` as the row
  function of row `p`: a matrix product with a transposed weight array plus a broadcast bias (the matrix unit's,
  into a zero accumulator, with the bias a `[1, N]` row; the host's `dot_general`, with the bias an `[N]` vector
  broadcast in two steps), a lane maximum and a lane sum over the columns, and the column broadcast that brings a
  row's maximum or logarithm back to the row's entries.
-/
import Mathlib.Data.Finset.Fold
import Idealize.ShloMosaic.PureOps.Ideal.Laws
import Idealize.ShloMosaic.Lib.ValueIdx
import Idealize.ShloMosaic.Lib.Pipeline.Value
import proofs.«157971_j30064771072596_1_alg».proof.Proof.LibPlainDot
import proofs.«157971_j30064771072596_1_alg».proof.Proof.LibKeepdims

noncomputable section

open scoped BigOperators

namespace Cert.RowMlp

open Idealize.ShloMosaic Idealize.ShloMosaic.ValueIdx

/-! ## The row functions -/

/-- A dense layer on one row: entry `j` is `∑ i, v i * W j i + b j`. -/
def dense {k n : ℕ} (W : Fin n → Fin k → EReal) (b : Fin n → EReal) (v : Fin k → EReal) : Fin n → EReal :=
  fun j => (∑ i : Fin k, v i * W j i) + b j

/-- The rectifier on one row: the larger of each entry and the value of the zero word. -/
def relu {n : ℕ} (v : Fin n → EReal) : Fin n → EReal :=
  fun j => max (v j) (Ideal.ofBits .f32 0x00000000#32)

/-- A row's largest entry: the fold of `max` over the row from the value of the word of `-∞`. -/
def rowMax {n : ℕ} (l : Fin n → EReal) : EReal :=
  (Finset.univ : Finset (Fin n)).fold max (Ideal.ofBits .f32 0xFF800000#32) l

/-- The log-softmax of one row, computed as both programs do: shift by the largest entry, then subtract the logarithm
    of the sum of the exponentials of the shifted entries. -/
def logSoftmax {n : ℕ} (l : Fin n → EReal) : Fin n → EReal :=
  fun q => (l q - rowMax l) - Ideal.log (∑ j : Fin n, Ideal.exp (l j - rowMax l))

/-- The network on one row: three dense layers, a rectifier after the first two, the log-softmax head. -/
def net {k0 k1 k2 k3 : ℕ} (W1 : Fin k1 → Fin k0 → EReal) (b1 : Fin k1 → EReal) (W2 : Fin k2 → Fin k1 → EReal)
    (b2 : Fin k2 → EReal) (W3 : Fin k3 → Fin k2 → EReal) (b3 : Fin k3 → EReal) (x : Fin k0 → EReal) : Fin k3 → EReal :=
  logSoftmax (dense W3 b3 (relu (dense W2 b2 (relu (dense W1 b1 x)))))

/-- The network on every row of an `[R, k0]` array: entry `(r, q)` of the result is the network of row `r` at `q`. The
    weight arrays are `[out, in]`, the biases vectors. -/
def rows {R k0 k1 k2 k3 : ℕ} (x : (⟨2, ![R, k0]⟩ : Shape).Idx → EReal)
    (w1 : (⟨2, ![k1, k0]⟩ : Shape).Idx → EReal) (b1 : (⟨1, ![k1]⟩ : Shape).Idx → EReal)
    (w2 : (⟨2, ![k2, k1]⟩ : Shape).Idx → EReal) (b2 : (⟨1, ![k2]⟩ : Shape).Idx → EReal)
    (w3 : (⟨2, ![k3, k2]⟩ : Shape).Idx → EReal) (b3 : (⟨1, ![k3]⟩ : Shape).Idx → EReal) :
    (⟨2, ![R, k3]⟩ : Shape).Idx → EReal :=
  fun i => net (fun j k => w1 (ix2 j k)) (fun j => b1 (ix1 j)) (fun j k => w2 (ix2 j k)) (fun j => b2 (ix1 j))
    (fun j k => w3 (ix2 j k)) (fun j => b3 (ix1 j)) (fun k => x (ix2 (i 0) k)) (i 1)

/-- Folding `max` from a starting value never goes below it, so taking `max` with the starting value once more changes
    nothing: the reference's extra `max(-∞, ·)` around the row maximum is the identity. -/
theorem max_rowMax {n : ℕ} (l : Fin n → EReal) : max (Ideal.ofBits .f32 0xFF800000#32) (rowMax l) = rowMax l :=
  max_eq_right ((Finset.le_fold_max _).mpr (Or.inl le_rfl))

/-! ## A dense layer, as each program prints it, read at an entry -/

variable {M K N : ℕ}

/-- The kernel's layer: the matrix unit's product of an `[M, K]` block with the transpose of an `[N, K]` weight block,
    into the zero accumulator, plus a `[1, N]` bias row broadcast down the rows. At `(p, j)` it is the dense layer of
    row `p` at `j`. -/
theorem kernel_layer {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![N, K]⟩ φ₂)
    (ht : (⟨2, ![N, K]⟩ : Shape).Transposes [1, 0] ⟨2, ![K, N]⟩)
    (b : FVec Ideal ⟨2, ![1, N]⟩ .f32) (hb : (⟨2, ![1, N]⟩ : Shape).Broadcasts ⟨2, ![M, N]⟩) (p : Fin M) (j : Fin N) :
    addf (matmul d none x (transpose ⟨2, ![K, N]⟩ [1, 0] w ht) (constant ⟨2, ![M, N]⟩ .f32 0x00000000#32))
        (broadcastTo ⟨2, ![M, N]⟩ b hb) (ix2 p j)
      = dense (fun j k => w (ix2 j k)) (fun j => b (ix2 (0 : Fin 1) j)) (fun k => x (ix2 p k)) j := by
  rw [addf_apply]
  simp only [matmul]
  rw [Cert.PlainDot.matmul_zero_apply d hd]
  unfold dense
  refine congrArg₂ (· + ·) (Finset.sum_congr rfl fun k _ => ?_) ?_
  · refine congrArg (x (ix2 p k) * ·) ?_
    exact transpose_apply [1, 0] w ht (ix2 k j) (ix2 j k) (fun a => match a with
      | ⟨0, _⟩ => rfl
      | ⟨1, _⟩ => rfl)
  · refine broadcastTo_apply b hb (ix2 p j) (ix2 (0 : Fin 1) j) fun a => ?_
    match a with
    | ⟨0, _⟩ => show 0 = if (1 : ℕ) = 1 then 0 else p.val; rw [if_pos rfl]
    | ⟨1, _⟩ =>
      show j.val = if N = 1 then 0 else j.val
      split
      · have := j.isLt; omega
      · rfl

/-- The reference's layer: the host's `dot_general` of an `[M, K]` array with the transpose of an `[N, K]` weight array,
    plus an `[N]` bias vector broadcast to a `[1, N]` row and then down the rows. At `(r, j)` it is the dense layer of
    row `r` at `j`. -/
theorem host_layer {φ₁ φ₂ : FTy} (d : DotDims ⟨2, ![M, K]⟩ ⟨2, ![K, N]⟩ ⟨2, ![M, N]⟩) (hd : d = DotDims.plain M K N)
    (x : FVec Ideal ⟨2, ![M, K]⟩ φ₁) (w : FVec Ideal ⟨2, ![N, K]⟩ φ₂)
    (ht : (⟨2, ![N, K]⟩ : Shape).Transposes [1, 0] ⟨2, ![K, N]⟩)
    (b : FVec Ideal ⟨1, ![N]⟩ .f32)
    (h1 : (⟨1, ![N]⟩ : Shape).BroadcastsInDim ⟨2, ![1, N]⟩ (![1] : Fin 1 → Fin 2))
    (h2 : (⟨2, ![1, N]⟩ : Shape).BroadcastsInDim ⟨2, ![M, N]⟩ (![0, 1] : Fin 2 → Fin 2)) (r : Fin M) (j : Fin N) :
    addf (Host.dotGeneral d none x (transpose ⟨2, ![K, N]⟩ [1, 0] w ht))
        (broadcastInDim ⟨2, ![M, N]⟩ ![0, 1] h2 (broadcastInDim ⟨2, ![1, N]⟩ ![1] h1 b)) (ix2 r j)
      = dense (fun j k => w (ix2 j k)) (fun j => b (ix1 j)) (fun k => x (ix2 r k)) j := by
  rw [addf_apply]
  simp only [Host.dotGeneral]
  rw [Cert.PlainDot.dotGeneral_apply d hd]
  unfold dense
  refine congrArg₂ (· + ·) (Finset.sum_congr rfl fun k _ => ?_) ?_
  · refine congrArg (x (ix2 r k) * ·) ?_
    exact transpose_apply [1, 0] w ht (ix2 k j) (ix2 j k) (fun a => match a with
      | ⟨0, _⟩ => rfl
      | ⟨1, _⟩ => rfl)
  · refine (broadcastInDim_apply _ h2 _ (ix2 r j) (ix2 (0 : Fin 1) j) fun a => ?_).trans ?_
    · match a with
      | ⟨0, _⟩ => show 0 = if (1 : ℕ) = 1 then 0 else r.val; rw [if_pos rfl]
      | ⟨1, _⟩ =>
        show j.val = if N = 1 then 0 else j.val
        split
        · have := j.isLt; omega
        · rfl
    · refine broadcastInDim_apply _ h1 b (ix2 (0 : Fin 1) j) (ix1 j) fun a => ?_
      match a with
      | ⟨0, _⟩ =>
        show j.val = if N = 1 then 0 else j.val
        split
        · have := j.isLt; omega
        · rfl

/-! ## The lane reductions over the columns, read at a row -/

/-- The kernel's lane maximum over the columns of an `[M, N]` block from the word of `-∞`, at row `p`, is the row's
    largest entry. -/
theorem kernel_rowMax (L : FVec Ideal ⟨2, ![M, N]⟩ .f32) (h : (⟨2, ![M, N]⟩ : Shape).Reduces [1] ⟨1, ![M]⟩)
    (hφ : FKind.Formats .f32) (hacc : (0xFF800000#32 : BitVec 32) = FKind.maximumf.neutral .f32 hφ) (p : Fin M) :
    multiReduction .maximumf [1] ⟨1, ![M]⟩ L 0xFF800000#32 h hφ hacc (ix1 p) = rowMax (fun j => L (ix2 p j)) := by
  rw [Ideal.multiReduction_maximumf_single]
  unfold rowMax
  refine congrArg (Finset.fold max _ · _) (funext fun k => ?_)
  exact congrArg L (funext fun a => Fin.ext (by match a with | ⟨0, _⟩ => rfl | ⟨1, _⟩ => rfl))

/-- The kernel's lane sum over the columns of an `[M, N]` block, at row `p`, is the sum of the row's entries. -/
theorem kernel_rowSum (E : FVec Ideal ⟨2, ![M, N]⟩ .f32) (h : (⟨2, ![M, N]⟩ : Shape).Reduces [1] ⟨1, ![M]⟩)
    (hφ : FKind.Formats .f32) (hacc : (0x00000000#32 : BitVec 32) = FKind.add.neutral .f32 hφ) (p : Fin M) :
    multiReduction .add [1] ⟨1, ![M]⟩ E 0x00000000#32 h hφ hacc (ix1 p) = ∑ j : Fin N, E (ix2 p j) := by
  rw [Ideal.multiReduction_add_single]
  refine Finset.sum_congr rfl fun k _ => ?_
  exact congrArg E (funext fun a => Fin.ext (by match a with | ⟨0, _⟩ => rfl | ⟨1, _⟩ => rfl))

/-- The host's maximum over the columns of an `[M, N]` array from a scalar holding the word of `-∞`, at row `r`, is the
    row's largest entry. -/
theorem host_rowMax (L : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (r : Fin M) :
    Host.reduce (FloatOps.maximumf (F := Ideal) (φ := .f32)) L (constant (F := Ideal) ⟨0, ![]⟩ .f32 0xFF800000#32) h' hu (ix1 r)
      = rowMax (fun j => L (ix2 r j)) := by
  rw [Host.reduce_eq_fold_single (FloatOps.maximumf (F := Ideal) (φ := .f32)) L _ h' h hu]
  unfold rowMax
  refine congrArg (Finset.fold max _ · _) (funext fun k => ?_)
  exact congrArg L (funext fun a => Fin.ext (by match a with | ⟨0, _⟩ => rfl | ⟨1, _⟩ => rfl))

/-- The host's sum over the columns of an `[M, N]` array from a scalar holding the zero word, at row `r`, is the sum of
    the row's entries. -/
theorem host_rowSum (E : FVec Ideal ⟨2, ![M, N]⟩ .f32) (h' : (⟨2, ![M, N]⟩ : Shape).ReducesTo [1] ⟨1, ![M]⟩)
    (h : (⟨2, ![M, N]⟩ : Shape).Reduces [1] ⟨1, ![M]⟩) (hu : 0 < (⟨0, ![]⟩ : Shape).numel) (r : Fin M) :
    Host.reduceAdd E (constant (F := Ideal) ⟨0, ![]⟩ .f32 0x00000000#32) h' hu (ix1 r) = ∑ j : Fin N, E (ix2 r j) := by
  simp only [Host.reduceAdd, Ideal.hostReduceAdd_def]
  rw [Ideal.hostReduceAdd_single h' h]
  rw [constant_apply, Ideal.ofBits_zero_f32, zero_add]
  refine Finset.sum_congr rfl fun k _ => ?_
  exact congrArg E (funext fun a => Fin.ext (by match a with | ⟨0, _⟩ => rfl | ⟨1, _⟩ => rfl))

end Cert.RowMlp

end
-- ==== Proof.KernelBlock.lean ====
/-
  The kernel's body on one block of 2048 rows, read at an entry.

  The body loads a `[2048, 784]` block of flattened images, the three weight arrays (stored `[out, in]`), the three
  bias rows, and stores `logits - max - log (sum (exp (logits - max)))`, the maximum and the sum taken along each
  row's ten columns. Its activations are named here in the order the body computes them (`act1`, `act2`, `logits`:
  the text of the body's own operations), and each is read at `(p, j)` as the row function of row `p` of the image
  block: the body's result at `(p, q)` is `Cert.RowMlp.net` of that row at `q`.
-/
import proofs.«157971_j30064771072596_1_alg».proof.Proof.Gen.KernelIdeal.Value
import proofs.«157971_j30064771072596_1_alg».proof.Proof.RowMlp

noncomputable section

open scoped BigOperators

namespace Cert.KernelIdeal.Block

open Cert.KernelIdeal Cert.KernelIdeal.Gen Idealize.ShloMosaic Idealize.ShloMosaic.ValueIdx Cert.RowMlp

variable (P0 : Vec Ideal S2048x784 .f32) (P1 : Vec Ideal S128x784 .bf16) (P2 : Vec Ideal S1x128 .f32)
  (P3 : Vec Ideal S256x128 .bf16) (P4 : Vec Ideal S1x256 .f32) (P5 : Vec Ideal S10x256 .bf16) (P6 : Vec Ideal S1x10 .f32)

/-- The weights and biases of the three layers as the row functions take them: entry `(j, k)` of a weight block, entry
    `(0, j)` of a bias row. -/
abbrev W1 : Fin 128 → Fin 784 → EReal := fun j k => P1 (ix2 j k)
abbrev B1 : Fin 128 → EReal := fun j => P2 (ix2 (0 : Fin 1) j)
abbrev W2 : Fin 256 → Fin 128 → EReal := fun j k => P3 (ix2 j k)
abbrev B2 : Fin 256 → EReal := fun j => P4 (ix2 (0 : Fin 1) j)
abbrev W3 : Fin 10 → Fin 256 → EReal := fun j k => P5 (ix2 j k)
abbrev B3 : Fin 10 → EReal := fun j => P6 (ix2 (0 : Fin 1) j)

/-- The first hidden activation, as the body computes it. -/
def act1 : FVec Ideal S2048x128 .bf16 :=
  have v1 : FVec Ideal S2048x784 .f32 := shapeCast S2048x784 P0 shapeCasts_S2048x784_S2048x784
  have v2 : FVec Ideal S2048x784 .bf16 := truncf .bf16 v1 bitsLt_bf16_f32
  have v4 : FVec Ideal S128x784 .bf16 := shapeCast S128x784 P1 shapeCasts_S128x784_S128x784
  have v5 : FVec Ideal S784x128 .bf16 := transpose S784x128 [1, 0] v4 transposes_S128x784_p1_0_S784x128
  have cst : FVec Ideal S2048x128 .f32 := constant S2048x128 .f32 0x00000000#32
  have v6 : FVec Ideal S2048x128 .f32 := matmul dot_S2048x784_S784x128_S2048x128_1_0_0_1_n_n none v2 v5 cst
  have v8 : FVec Ideal S1x128 .f32 := shapeCast S1x128 P2 shapeCasts_S1x128_S1x128
  have v9 : FVec Ideal S2048x128 .f32 := broadcastTo S2048x128 v8 broadcasts_S1x128_S2048x128
  have v10 : FVec Ideal S2048x128 .f32 := addf v6 v9
  have cst_5 : Ideal .f32 := Scalar.ofBits .f32 0x00000000#32
  have v11 : FVec Ideal S2048x128 .f32 := broadcast S2048x128 cst_5
  have v12 : FVec Ideal S2048x128 .f32 := maximumf v10 v11
  have v13 : FVec Ideal S2048x128 .bf16 := truncf .bf16 v12 bitsLt_bf16_f32
  v13

/-- The second hidden activation. -/
def act2 : FVec Ideal S2048x256 .bf16 :=
  have v15 : FVec Ideal S256x128 .bf16 := shapeCast S256x128 P3 shapeCasts_S256x128_S256x128
  have v16 : FVec Ideal S128x256 .bf16 := transpose S128x256 [1, 0] v15 transposes_S256x128_p1_0_S128x256
  have cst_8 : FVec Ideal S2048x256 .f32 := constant S2048x256 .f32 0x00000000#32
  have v17 : FVec Ideal S2048x256 .f32 := matmul dot_S2048x128_S128x256_S2048x256_1_0_0_1_n_n none (act1 P0 P1 P2) v16 cst_8
  have v19 : FVec Ideal S1x256 .f32 := shapeCast S1x256 P4 shapeCasts_S1x256_S1x256
  have v20 : FVec Ideal S2048x256 .f32 := broadcastTo S2048x256 v19 broadcasts_S1x256_S2048x256
  have v21 : FVec Ideal S2048x256 .f32 := addf v17 v20
  have cst_11 : Ideal .f32 := Scalar.ofBits .f32 0x00000000#32
  have v22 : FVec Ideal S2048x256 .f32 := broadcast S2048x256 cst_11
  have v23 : FVec Ideal S2048x256 .f32 := maximumf v21 v22
  have v24 : FVec Ideal S2048x256 .bf16 := truncf .bf16 v23 bitsLt_bf16_f32
  v24

/-- The logits. -/
def logits : FVec Ideal S2048x10 .f32 :=
  have v26 : FVec Ideal S10x256 .bf16 := shapeCast S10x256 P5 shapeCasts_S10x256_S10x256
  have v27 : FVec Ideal S256x10 .bf16 := transpose S256x10 [1, 0] v26 transposes_S10x256_p1_0_S256x10
  have cst_14 : FVec Ideal S2048x10 .f32 := constant S2048x10 .f32 0x00000000#32
  have v28 : FVec Ideal S2048x10 .f32 := matmul dot_S2048x256_S256x10_S2048x10_1_0_0_1_n_n none (act2 P0 P1 P2 P3 P4) v27 cst_14
  have v30 : FVec Ideal S1x10 .f32 := shapeCast S1x10 P6 shapeCasts_S1x10_S1x10
  have v31 : FVec Ideal S2048x10 .f32 := broadcastTo S2048x10 v30 broadcasts_S1x10_S2048x10
  have v32 : FVec Ideal S2048x10 .f32 := addf v28 v31
  v32

/-- The body's shifted logits are the logits minus their row maximum, broadcast back along the row. -/
theorem pay2_eq : k0_pay2 P0 P1 P2 P3 P4 P5 P6
    = subf (logits P0 P1 P2 P3 P4 P5 P6) (broadcastTo S2048x10 (shapeCast S2048x1
        (multiReduction .maximumf [1] S2048 (logits P0 P1 P2 P3 P4 P5 P6) 0xFF800000#32 reduces_S2048x10_S2048 (.inl rfl) rfl)
        shapeCasts_S2048_S2048x1) broadcasts_S2048x1_S2048x10) := rfl

theorem act1_apply (p : Fin 2048) (j : Fin 128) :
    act1 P0 P1 P2 (ix2 p j) = relu (dense (W1 P1) (B1 P2) (fun k => P0 (ix2 p k))) j := by
  unfold act1
  dsimp only
  rw [truncf_apply, maximumf_apply, broadcast_apply]
  simp only [shapeCast_self]
  rw [kernel_layer dot_S2048x784_S784x128_S2048x128_1_0_0_1_n_n rfl]
  rfl

theorem act2_apply (p : Fin 2048) (j : Fin 256) :
    act2 P0 P1 P2 P3 P4 (ix2 p j)
      = relu (dense (W2 P3) (B2 P4) (relu (dense (W1 P1) (B1 P2) (fun k => P0 (ix2 p k))))) j := by
  unfold act2
  dsimp only
  rw [truncf_apply, maximumf_apply, broadcast_apply]
  simp only [shapeCast_self]
  rw [kernel_layer dot_S2048x128_S128x256_S2048x256_1_0_0_1_n_n rfl]
  simp only [act1_apply]
  rfl

theorem logits_apply (p : Fin 2048) (j : Fin 10) :
    logits P0 P1 P2 P3 P4 P5 P6 (ix2 p j)
      = dense (W3 P5) (B3 P6) (relu (dense (W2 P3) (B2 P4) (relu (dense (W1 P1) (B1 P2) (fun k => P0 (ix2 p k)))))) j := by
  unfold logits
  dsimp only
  simp only [shapeCast_self]
  rw [kernel_layer dot_S2048x256_S256x10_S2048x10_1_0_0_1_n_n rfl]
  simp only [act2_apply]

/-- The shifted logits at `(p, q)`: the row's logit at `q` minus the row's largest logit. -/
theorem pay2_apply (p : Fin 2048) (q : Fin 10) :
    k0_pay2 P0 P1 P2 P3 P4 P5 P6 (ix2 p q)
      = logits P0 P1 P2 P3 P4 P5 P6 (ix2 p q) - rowMax (fun j => logits P0 P1 P2 P3 P4 P5 P6 (ix2 p j)) := by
  rw [pay2_eq, subf_apply]
  refine congrArg (logits P0 P1 P2 P3 P4 P5 P6 (ix2 p q) - ·) ?_
  refine (Cert.Keepdims.broadcastTo_a1_ab_apply _ _ p q).trans ?_
  refine (Cert.Keepdims.shapeCast_a_a1_apply _ _ p 0).trans ?_
  exact kernel_rowMax _ _ _ _ p

/-- WHAT THE BODY LEAVES in the output block at `(p, q)`: the network of row `p` of the image block, at `q`. -/
theorem block_apply (p : Fin 2048) (q : Fin 10) :
    Cert.KernelIdeal.Value.E7 P0 P1 P2 P3 P4 P5 P6 (ix2 p q)
      = net (W1 P1) (B1 P2) (W2 P3) (B2 P4) (W3 P5) (B3 P6) (fun k => P0 (ix2 p k)) q := by
  have e0 : Cert.KernelIdeal.Value.ix7_0 (ix2 p q) = ix2 p q :=
    funext fun a => Fin.ext (by match a with | ⟨0, _⟩ => rfl | ⟨1, _⟩ => rfl)
  have e1 : Cert.KernelIdeal.Value.ix7_1 (ix2 p q) = ix1 p :=
    funext fun a => Fin.ext (by match a with | ⟨0, _⟩ => rfl)
  show FloatOps.subf (k0_pay2 P0 P1 P2 P3 P4 P5 P6 (Cert.KernelIdeal.Value.ix7_0 (ix2 p q)))
      (FloatOps.log (multiReduction .add [1] S2048 (exp (k0_pay2 P0 P1 P2 P3 P4 P5 P6)) 0x00000000#32
        reduces_S2048x10_S2048 (.inl rfl) rfl (Cert.KernelIdeal.Value.ix7_1 (ix2 p q)))) = _
  rw [e0, e1]
  refine (congrArg (fun z => FloatOps.subf (k0_pay2 P0 P1 P2 P3 P4 P5 P6 (ix2 p q)) (FloatOps.log z))
    (kernel_rowSum (Idealize.ShloMosaic.exp (k0_pay2 P0 P1 P2 P3 P4 P5 P6)) reduces_S2048x10_S2048 (.inl rfl) rfl p)).trans ?_
  unfold net logSoftmax
  simp only [Idealize.ShloMosaic.exp, pay2_apply, logits_apply]
  rfl

end Cert.KernelIdeal.Block

end
-- ==== Proof.KernelArray.lean ====
/-
  From the blocks to the array: the kernel's result is the network on every row of the flattened images.

  The grid has sixteen points. Point `t` reads rows `2048 t … 2048 t + 2047` of the flattened images and the whole of
  every weight and bias array (their block index is `(0, 0)` at every point), and writes back rows
  `2048 t … 2048 t + 2047` of the result. By the body's reading at an entry (`Cert.KernelIdeal.Block.block_apply`) what
  point `t` writes back is block `t` of ONE array, the network on every row; the sixteen blocks tile the `[32768, 10]`
  result, so the result array ends holding that array. The arrays the region stages are the host's re-layouts of the
  arguments: the flattened images, the weights (a change of format, the identity on the extended reals) and each bias
  vector as a `[1, n]` row.
-/
import proofs.«157971_j30064771072596_1_alg».proof.Proof.KernelBlock
import Idealize.ShloMosaic.Lib.Pipeline.Value
import Idealize.ShloMosaic.Lib.StableHlo.Run
import Idealize.ShloMosaic.Lib.ValueLayout

set_option maxRecDepth 16384

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.ValueIdx Cert.RowMlp Cert.KernelIdeal.Block
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The network on every row, over the arrays the region stages: weight blocks `[out, in]`, bias rows `[1, n]`. -/
def G (A0 : Vec Ideal S32768x784 .f32) (A1 : Vec Ideal S128x784 .bf16) (A2 : Vec Ideal S1x128 .f32)
    (A3 : Vec Ideal S256x128 .bf16) (A4 : Vec Ideal S1x256 .f32) (A5 : Vec Ideal S10x256 .bf16) (A6 : Vec Ideal S1x10 .f32) :
    Vec Ideal S32768x10 .f32 :=
  fun i => net (W1 A1) (B1 A2) (W2 A3) (B2 A4) (W3 A5) (B3 A6) (fun k => A0 (ix2 (i 0) k)) (i 1)

/-- The printed index maps over the sixteen points: the image and result windows are at block `(t, 0)`, the
    weight and bias windows at block `(0, 0)`. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-! ## Each input window's block, read through its array -/

/-- The image block at point `t`, at `(p, k)`, is the flattened images at row `2048 t + p`. -/
theorem iblk0_apply (c : Dev nD) (t : Fin cfg0.N) (p : Fin 2048) (k : Fin 784) (r : Fin 32768) (hr : r.val = t.val * 2048 + p.val) :
    (iblk m c 0 t : Vec Ideal S2048x784 .f32) (ix2 p k) = (V m c main_v0 : Vec Ideal S32768x784 .f32) (ix2 r k) := by
  obtain ⟨e0, e1, -⟩ := idx_facts t
  unfold iblk
  rw [View.read_apply]
  show V m c main_v0 _ = V m c main_v0 _
  congr 1
  funext a
  apply Fin.ext
  match a with
  | ⟨0, _⟩ => show win0_0.index t (0 : Fin 2) * 2048 + 1 * p.val = r.val; rw [e0, hr]; omega
  | ⟨1, _⟩ => show win0_0.index t (1 : Fin 2) * 784 + 1 * k.val = k.val; rw [e1]; omega

/-- A weight or bias window's block at any point is its whole array. -/
theorem iblk1_eq (c : Dev nD) (t : Fin cfg0.N) : (iblk m c 1 t : Vec Ideal S128x784 .bf16) = (V m c main_v1 : Vec Ideal S128x784 .bf16) := by
  obtain ⟨-, -, e0, e1, -⟩ := idx_facts t
  funext y
  unfold iblk
  rw [View.read_apply]
  show V m c main_v1 _ = V m c main_v1 _
  congr 1
  funext a
  apply Fin.ext
  match a with
  | ⟨0, _⟩ => show win0_1.index t (0 : Fin 2) * 128 + 1 * (y 0).val = (y 0).val; rw [e0]; omega
  | ⟨1, _⟩ => show win0_1.index t (1 : Fin 2) * 784 + 1 * (y 1).val = (y 1).val; rw [e1]; omega
theorem iblk2_eq (c : Dev nD) (t : Fin cfg0.N) : (iblk m c 2 t : Vec Ideal S1x128 .f32) = (V m c main_v4 : Vec Ideal S1x128 .f32) := by
  obtain ⟨-, -, -, -, e0, e1, -⟩ := idx_facts t
  funext y
  unfold iblk
  rw [View.read_apply]
  show V m c main_v4 _ = V m c main_v4 _
  congr 1
  funext a
  apply Fin.ext
  match a with
  | ⟨0, _⟩ => show win0_2.index t (0 : Fin 2) * 1 + 1 * (y 0).val = (y 0).val; rw [e0]; omega
  | ⟨1, _⟩ => show win0_2.index t (1 : Fin 2) * 128 + 1 * (y 1).val = (y 1).val; rw [e1]; omega
theorem iblk3_eq (c : Dev nD) (t : Fin cfg0.N) : (iblk m c 3 t : Vec Ideal S256x128 .bf16) = (V m c main_v2 : Vec Ideal S256x128 .bf16) := by
  obtain ⟨-, -, -, -, -, -, e0, e1, -⟩ := idx_facts t
  funext y
  unfold iblk
  rw [View.read_apply]
  show V m c main_v2 _ = V m c main_v2 _
  congr 1
  funext a
  apply Fin.ext
  match a with
  | ⟨0, _⟩ => show win0_3.index t (0 : Fin 2) * 256 + 1 * (y 0).val = (y 0).val; rw [e0]; omega
  | ⟨1, _⟩ => show win0_3.index t (1 : Fin 2) * 128 + 1 * (y 1).val = (y 1).val; rw [e1]; omega
theorem iblk4_eq (c : Dev nD) (t : Fin cfg0.N) : (iblk m c 4 t : Vec Ideal S1x256 .f32) = (V m c main_v5 : Vec Ideal S1x256 .f32) := by
  obtain ⟨-, -, -, -, -, -, -, -, e0, e1, -⟩ := idx_facts t
  funext y
  unfold iblk
  rw [View.read_apply]
  show V m c main_v5 _ = V m c main_v5 _
  congr 1
  funext a
  apply Fin.ext
  match a with
  | ⟨0, _⟩ => show win0_4.index t (0 : Fin 2) * 1 + 1 * (y 0).val = (y 0).val; rw [e0]; omega
  | ⟨1, _⟩ => show win0_4.index t (1 : Fin 2) * 256 + 1 * (y 1).val = (y 1).val; rw [e1]; omega
theorem iblk5_eq (c : Dev nD) (t : Fin cfg0.N) : (iblk m c 5 t : Vec Ideal S10x256 .bf16) = (V m c main_v3 : Vec Ideal S10x256 .bf16) := by
  obtain ⟨-, -, -, -, -, -, -, -, -, -, e0, e1, -⟩ := idx_facts t
  funext y
  unfold iblk
  rw [View.read_apply]
  show V m c main_v3 _ = V m c main_v3 _
  congr 1
  funext a
  apply Fin.ext
  match a with
  | ⟨0, _⟩ => show win0_5.index t (0 : Fin 2) * 10 + 1 * (y 0).val = (y 0).val; rw [e0]; omega
  | ⟨1, _⟩ => show win0_5.index t (1 : Fin 2) * 256 + 1 * (y 1).val = (y 1).val; rw [e1]; omega
theorem iblk6_eq (c : Dev nD) (t : Fin cfg0.N) : (iblk m c 6 t : Vec Ideal S1x10 .f32) = (V m c main_v6 : Vec Ideal S1x10 .f32) := by
  obtain ⟨-, -, -, -, -, -, -, -, -, -, -, -, e0, e1, -⟩ := idx_facts t
  funext y
  unfold iblk
  rw [View.read_apply]
  show V m c main_v6 _ = V m c main_v6 _
  congr 1
  funext a
  apply Fin.ext
  match a with
  | ⟨0, _⟩ => show win0_6.index t (0 : Fin 2) * 1 + 1 * (y 0).val = (y 0).val; rw [e0]; omega
  | ⟨1, _⟩ => show win0_6.index t (1 : Fin 2) * 10 + 1 * (y 1).val = (y 1).val; rw [e1]; omega

/-! ## What a point writes back, and the cover -/

/-- WHAT POINT `t` WRITES BACK is block `t` of the network on every row, over the arrays as the region finds them. -/
theorem flushed_eq (c : Dev nD) (t : Fin cfg0.N) :
    (dats m 0 c).flushed 7 t = ((cfg0.win 7).blk t).view.read (Elt Ideal)
      (G (V m c main_v0) (V m c main_v1) (V m c main_v4) (V m c main_v2) (V m c main_v5) (V m c main_v3) (V m c main_v6)) := by
  rw [flushed7]
  unfold out0_7
  obtain ⟨-, -, -, -, -, -, -, -, -, -, -, -, -, -, e0, e1⟩ := idx_facts t
  funext y
  obtain ⟨p, q, rfl⟩ : ∃ (p : Fin 2048) (q : Fin 10), y = ix2 p q := ⟨y 0, y 1, eq_ix2 y⟩
  refine (canon7_eq _ _ _ _ _ _ _ (ix2 p q)).trans ?_
  simp only [View.ld_unit_zero (S := S2048x784) hz, View.ld_unit_zero (S := S128x784) hz, View.ld_unit_zero (S := S1x128) hz,
    View.ld_unit_zero (S := S256x128) hz, View.ld_unit_zero (S := S1x256) hz, View.ld_unit_zero (S := S10x256) hz,
    View.ld_unit_zero (S := S1x10) hz]
  rw [block_apply, iblk1_eq, iblk2_eq, iblk3_eq, iblk4_eq, iblk5_eq, iblk6_eq]
  have hp : p.val < 2048 := p.isLt
  have ht : t.val < 16 := (show t.val < grid0.N from t.isLt).trans_eq N_0
  let r : Fin 32768 := ⟨t.val * 2048 + p.val, by omega⟩
  have hemb : ((cfg0.win 7).blk t).view.emb (ix2 p q) = (ix2 r q : S32768x10.Idx) := by
    funext a
    apply Fin.ext
    match a with
    | ⟨0, _⟩ => show win0_7.index t (0 : Fin 2) * 2048 + 1 * p.val = t.val * 2048 + p.val; rw [e0]; omega
    | ⟨1, _⟩ => show win0_7.index t (1 : Fin 2) * 10 + 1 * q.val = q.val; rw [e1]; omega
  rw [View.read_apply, hemb]
  unfold G
  refine congrArg (fun x => net _ _ _ _ _ _ x q) (funext fun k => ?_)
  exact iblk0_apply m c t p k r rfl

/-- Every index of the result is in SOME point's block: the point of row `i 0` is `(i 0) / 2048`. -/
theorem cover (i : S32768x10.Idx) : ∃ t : Fin cfg0.N, (cfg0.win 7).flush t = true ∧ i ∈ ((cfg0.win 7).blk t).view.set := by
  have h0 : (i 0).val < 32768 := (i 0).isLt
  have h1 : (i 1).val < 10 := (i 1).isLt
  let t : Fin cfg0.N := ⟨(i 0).val / 2048, by rw [show cfg0.N = 16 from N_0]; omega⟩
  obtain ⟨-, -, -, -, -, -, -, -, -, -, -, -, -, -, e0, e1⟩ := idx_facts t
  refine ⟨t, flush0_7 t, ?_⟩
  show i ∈ ((View.whole main_v7).slice (win0_7.rect t)).set
  rw [View.set_slice_whole, Rect.mem_set_unit]
  intro a
  match a with
  | ⟨0, _⟩ =>
    show win0_7.index t (0 : Fin 2) * 2048 ≤ (i 0).val ∧ (i 0).val < win0_7.index t (0 : Fin 2) * 2048 + 2048
    rw [e0]; show (i 0).val / 2048 * 2048 ≤ (i 0).val ∧ (i 0).val < (i 0).val / 2048 * 2048 + 2048; omega
  | ⟨1, _⟩ =>
    show win0_7.index t (1 : Fin 2) * 10 ≤ (i 1).val ∧ (i 1).val < win0_7.index t (1 : Fin 2) * 10 + 10
    rw [e1]; omega

/-- THE ARRAY after the run, over the arrays as the region finds them. -/
theorem final (c : Dev nD) : (dats m 0 c).arrAt 7 cfg0.N
    = G (V m c main_v0) (V m c main_v1) (V m c main_v4) (V m c main_v2) (V m c main_v5) (V m c main_v3) (V m c main_v6) :=
  (dats m 0 c).arrAt_eq_of_cover 7 _ (fun t _ => flushed_eq m c t) cover

/-! ## The arrays the region finds, as the host's re-layouts of the arguments -/

theorem V_v0 (c : Dev nD) : (V m c main_v0 : S32768x784.Idx → EReal)
    = shapeCast S32768x784 (m ((c : Thread nD τ).loc main_arg0)) shapeCasts_S32768x1x28x28_S32768x784 := by
  dsimp only [Gen.V, Gen.hostOps0]; after_results; rfl
theorem V_v1 (c : Dev nD) : (V m c main_v1 : S128x784.Idx → EReal) = m ((c : Thread nD τ).loc main_arg1) := by
  dsimp only [Gen.V, Gen.hostOps0]; after_results; rfl
theorem V_v2 (c : Dev nD) : (V m c main_v2 : S256x128.Idx → EReal) = m ((c : Thread nD τ).loc main_arg3) := by
  dsimp only [Gen.V, Gen.hostOps0]; after_results; rfl
theorem V_v3 (c : Dev nD) : (V m c main_v3 : S10x256.Idx → EReal) = m ((c : Thread nD τ).loc main_arg5) := by
  dsimp only [Gen.V, Gen.hostOps0]; after_results; rfl
theorem V_v4 (c : Dev nD) : (V m c main_v4 : S1x128.Idx → EReal)
    = shapeCast S1x128 (m ((c : Thread nD τ).loc main_arg2)) shapeCasts_S128_S1x128 := by
  dsimp only [Gen.V, Gen.hostOps0]; after_results; rfl
theorem V_v5 (c : Dev nD) : (V m c main_v5 : S1x256.Idx → EReal)
    = shapeCast S1x256 (m ((c : Thread nD τ).loc main_arg4)) shapeCasts_S256_S1x256 := by
  dsimp only [Gen.V, Gen.hostOps0]; after_results; rfl
theorem V_v6 (c : Dev nD) : (V m c main_v6 : S1x10.Idx → EReal)
    = shapeCast S1x10 (m ((c : Thread nD τ).loc main_arg6)) shapeCasts_S10_S1x10 := by
  dsimp only [Gen.V, Gen.hostOps0]; after_results; rfl

/-- THE RESULT as a function of the arguments: the network on every row of the flattened images. -/
def result (c : Dev nD) : S32768x10.Idx → EReal :=
  rows (shapeCast S32768x784 (m ((c : Thread nD τ).loc main_arg0)) shapeCasts_S32768x1x28x28_S32768x784)
    (m ((c : Thread nD τ).loc main_arg1)) (m ((c : Thread nD τ).loc main_arg2)) (m ((c : Thread nD τ).loc main_arg3))
    (m ((c : Thread nD τ).loc main_arg4)) (m ((c : Thread nD τ).loc main_arg5)) (m ((c : Thread nD τ).loc main_arg6))

theorem G_eq (c : Dev nD) :
    G (V m c main_v0) (V m c main_v1) (V m c main_v4) (V m c main_v2) (V m c main_v5) (V m c main_v3) (V m c main_v6)
      = result m c := by
  funext i
  unfold G result rows W1 B1 W2 B2 W3 B3
  rw [V_v0, V_v1, V_v2, V_v3, V_v4, V_v5, V_v6]
  simp only [shapeCast_a_1a_apply]

/-- The run, read: the result array at the network on every row, the arguments unchanged. -/
theorem run : θ_run defs (onTc (τ := τ) (main (F := Ideal))) ⟨m, fun _ => 0, ρ⟩ fun r => ∀ c : Dev nD,
      r.2.mem ((c : Thread nD τ).loc main_v7) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun _ h c => ⟨((h c).1.trans (final m c)).trans (G_eq m c), (h c).2⟩) (run_blocks m ρ)

end Cert.KernelIdeal.Whole

end
-- ==== Proof.HostRows.lean ====
/-
  The reference program, read at an entry.

  The reference flattens the images to `[32768, 784]` and runs the three layers on all the rows at once: each layer a
  `dot_general` with the transposed weight array plus the bias vector broadcast over the rows, a rectifier after the first
  two, and jax's `log_softmax` along the ten columns (the row maximum from `-∞`, once more `max` with `-∞`, the shift,
  the logarithm of the sum of the exponentials). Each stage is read at `(r, j)` as the row function of row `r` of the
  flattened images: the result at `(r, q)` is `Cert.RowMlp.net` of that row at `q`.
-/
import proofs.«157971_j30064771072596_1_alg».proof.Proof.RefRead
import proofs.«157971_j30064771072596_1_alg».proof.Proof.RowMlp

noncomputable section

open scoped BigOperators

namespace Cert.ReferenceIdeal.Rows

open Cert.ReferenceIdeal Cert.ReferenceIdeal.Gen Cert.ReferenceIdeal.ReadP Idealize.ShloMosaic Idealize.ShloMosaic.ValueIdx
open Cert.RowMlp

variable (x0 : FVec Ideal S32768x1x28x28 .f32) (x1 : FVec Ideal S128x784 .f32) (x2 : FVec Ideal S128 .f32)
  (x3 : FVec Ideal S256x128 .f32) (x4 : FVec Ideal S256 .f32) (x5 : FVec Ideal S10x256 .f32) (x6 : FVec Ideal S10 .f32)

/-- The weights and biases as the row functions take them: entry `(j, k)` of a weight array, entry `j` of a bias vector. -/
abbrev W1 : Fin 128 → Fin 784 → EReal := fun j k => x1 (ix2 j k)
abbrev B1 : Fin 128 → EReal := fun j => x2 (ix1 j)
abbrev W2 : Fin 256 → Fin 128 → EReal := fun j k => x3 (ix2 j k)
abbrev B2 : Fin 256 → EReal := fun j => x4 (ix1 j)
abbrev W3 : Fin 10 → Fin 256 → EReal := fun j k => x5 (ix2 j k)
abbrev B3 : Fin 10 → EReal := fun j => x6 (ix1 j)

/-- Row `r` of the flattened images. -/
abbrev row (r : Fin 32768) : Fin 784 → EReal := fun k => val_main_v0 (F := Ideal) x0 (ix2 r k)

/-- A scalar constant broadcast to an array reads the constant's value everywhere. -/
theorem zero1_apply (i : S32768x128.Idx) : val_main_call0_v0 (F := Ideal) i = Ideal.ofBits .f32 0x00000000#32 := by
  rw [val_main_call0_v0_apply, val_main_call0_cst_apply]; rfl
theorem zero2_apply (i : S32768x256.Idx) : val_main_call1_v0 (F := Ideal) i = Ideal.ofBits .f32 0x00000000#32 := by
  rw [val_main_call1_v0_apply, val_main_call1_cst_apply]; rfl

theorem v6_apply (r : Fin 32768) (j : Fin 128) :
    val_main_v6 (F := Ideal) x0 x1 x2 (ix2 r j) = relu (dense (W1 x1) (B1 x2) (row x0 r)) j := by
  rw [val_main_v6_apply, zero1_apply]
  unfold val_main_v5 val_main_v2 val_main_v4 val_main_v3 val_main_v1
  rw [host_layer dot_S32768x784_S784x128_S32768x128_1_0_0_1_n_n rfl]
  rfl

theorem v12_apply (r : Fin 32768) (j : Fin 256) :
    val_main_v12 (F := Ideal) x0 x1 x2 x3 x4 (ix2 r j)
      = relu (dense (W2 x3) (B2 x4) (relu (dense (W1 x1) (B1 x2) (row x0 r)))) j := by
  rw [val_main_v12_apply, zero2_apply]
  unfold val_main_v11 val_main_v8 val_main_v10 val_main_v9 val_main_v7
  rw [host_layer dot_S32768x128_S128x256_S32768x256_1_0_0_1_n_n rfl]
  simp only [v6_apply]
  rfl

theorem v17_apply (r : Fin 32768) (j : Fin 10) :
    val_main_v17 (F := Ideal) x0 x1 x2 x3 x4 x5 x6 (ix2 r j)
      = dense (W3 x5) (B3 x6) (relu (dense (W2 x3) (B2 x4) (relu (dense (W1 x1) (B1 x2) (row x0 r))))) j := by
  unfold val_main_v17 val_main_v14 val_main_v16 val_main_v15 val_main_v13
  rw [host_layer dot_S32768x256_S256x10_S32768x10_1_0_0_1_n_n rfl]
  simp only [v12_apply]

/-- The row maximum the reference subtracts: the host's maximum over the columns, once more `max` with `-∞`. -/
theorem call2_v2_apply (r : Fin 32768) :
    val_main_call2_v2 (F := Ideal) x0 x1 x2 x3 x4 x5 x6 (ix1 r)
      = rowMax (fun j => val_main_v17 (F := Ideal) x0 x1 x2 x3 x4 x5 x6 (ix2 r j)) := by
  rw [val_main_call2_v2_apply, val_main_call2_v1_apply, val_main_call2_cst_0_apply]
  unfold val_main_call2_v0 val_main_call2_cst
  refine (congrArg (FloatOps.maximumf (FloatOps.ofBits .f32 0xFF800000#32) ·)
    (host_rowMax (val_main_v17 (F := Ideal) x0 x1 x2 x3 x4 x5 x6) reducesTo_S32768x10_S32768_d1 (by decide) h_S_ r)).trans ?_
  exact max_rowMax _

/-- The shifted logits at `(r, q)`. -/
theorem call2_v5_apply (r : Fin 32768) (q : Fin 10) :
    val_main_call2_v5 (F := Ideal) x0 x1 x2 x3 x4 x5 x6 (ix2 r q)
      = val_main_v17 (F := Ideal) x0 x1 x2 x3 x4 x5 x6 (ix2 r q)
        - rowMax (fun j => val_main_v17 (F := Ideal) x0 x1 x2 x3 x4 x5 x6 (ix2 r j)) := by
  rw [val_main_call2_v5_apply, val_main_call2_v4_apply, val_main_call2_v3_apply]
  have e : idx_main_call2_v3 (idx_main_call2_v4 (ix2 r q)) = ix1 r :=
    funext fun a => Fin.ext (by match a with | ⟨0, _⟩ => rfl)
  rw [e, call2_v2_apply]
  rfl

/-- The logarithm of the row's sum of exponentials, at `(r, q)`. -/
theorem call2_v10_apply (r : Fin 32768) (q : Fin 10) :
    val_main_call2_v10 (F := Ideal) x0 x1 x2 x3 x4 x5 x6 (ix2 r q)
      = Ideal.log (∑ j : Fin 10, Ideal.exp (val_main_call2_v5 (F := Ideal) x0 x1 x2 x3 x4 x5 x6 (ix2 r j))) := by
  rw [val_main_call2_v10_apply, val_main_call2_v9_apply, val_main_call2_v8_apply]
  have e : idx_main_call2_v8 (idx_main_call2_v10 (ix2 r q)) = ix1 r :=
    funext fun a => Fin.ext (by match a with | ⟨0, _⟩ => rfl)
  rw [e]
  unfold val_main_call2_v7 val_main_call2_cst_1 val_main_call2_v6
  refine (congrArg (FloatOps.hostUnary .log ·)
    (host_rowSum (Host.exp (val_main_call2_v5 (F := Ideal) x0 x1 x2 x3 x4 x5 x6)) reducesTo_S32768x10_S32768_d1 (by decide) h_S_ r)).trans ?_
  rfl

/-- WHAT THE REFERENCE RETURNS at `(r, q)`: the network of row `r` of the flattened images, at `q`. -/
theorem result_apply (r : Fin 32768) (q : Fin 10) :
    val_main_v18 (F := Ideal) x0 x1 x2 x3 x4 x5 x6 (ix2 r q)
      = net (W1 x1) (B1 x2) (W2 x3) (B2 x4) (W3 x5) (B3 x6) (row x0 r) q := by
  rw [val_main_v18_apply, call2_v10_apply]
  unfold net logSoftmax
  simp only [call2_v5_apply, v17_apply]
  rfl

/-- The reference's result array is the network on every row of the flattened images. -/
theorem result_eq :
    val_main_v18 (F := Ideal) x0 x1 x2 x3 x4 x5 x6
      = rows (val_main_v0 (F := Ideal) x0) x1 x2 x3 x4 x5 x6 := by
  funext i
  obtain ⟨r, q, rfl⟩ : ∃ (r : Fin 32768) (q : Fin 10), i = ix2 r q := ⟨i 0, i 1, eq_ix2 i⟩
  exact result_apply x0 x1 x2 x3 x4 x5 x6 r q

end Cert.ReferenceIdeal.Rows

end
-- ==== Proof.lean ====
/-
  A three-layer perceptron with a log-softmax head on 32768 flattened 28 × 28 images: the kernel runs the network on
  sixteen blocks of 2048 rows, the reference on all the rows at once.

  Both programs compute, for every image row `x` (784 entries), the row
      logSoftmax (W3 · relu (W2 · relu (W1 · x + b1) + b2) + b3)
  with the weights stored `[out, in]`, `relu v = max v 0` and `logSoftmax l = (l - M) - log (∑ exp (l - M))`, `M` the row's
  largest entry (`Cert.RowMlp.net`). The kernel narrows its matrix operands to bf16, a change of format that is the
  identity on the extended reals; its matrix products accumulate into zero, which is the host's `dot_general`; its lane
  maximum and lane sum over the ten columns are the host's reductions over that axis; the reference's extra `max` of the
  row maximum with `-∞` is the identity. No step needs the inputs finite: the two sides are the same expression of the
  same entries, row by row, so the precondition is not opened.

  The kernel's result is read off the generated value leg: what a grid point writes back is the body's canon of its one
  store (Proof/Gen/KernelIdeal/Value.lean), at an entry the network of the point's image row (Proof/KernelBlock.lean),
  and the sixteen blocks tile the result (Proof/KernelArray.lean). The reference's result is read off its run
  (Proof/RefRun.lean, Proof/RefRead.lean) stage by stage (Proof/HostRows.lean). The row functions and the readings of
  each printed operation at an entry are Proof/RowMlp.lean. The ideal pass rewrote nothing, so `preserves` is `True`.
-/
import proofs.«157971_j30064771072596_1_alg».proof.Defs
import proofs.«157971_j30064771072596_1_alg».proof.Proof.Gen.Kernel
import proofs.«157971_j30064771072596_1_alg».proof.Proof.Gen.Kernel.Skeleton
import proofs.«157971_j30064771072596_1_alg».proof.Proof.Gen.Kernel.Launch
import proofs.«157971_j30064771072596_1_alg».proof.Proof.Gen.Kernel.Points
import proofs.«157971_j30064771072596_1_alg».proof.Proof.Gen.Kernel.Frame
import proofs.«157971_j30064771072596_1_alg».proof.Proof.Gen.KernelIdeal
import proofs.«157971_j30064771072596_1_alg».proof.Proof.Gen.KernelIdeal.Skeleton
import proofs.«157971_j30064771072596_1_alg».proof.Proof.Gen.KernelIdeal.Launch
import proofs.«157971_j30064771072596_1_alg».proof.Proof.Gen.KernelIdeal.Points
import proofs.«157971_j30064771072596_1_alg».proof.Proof.Gen.KernelIdeal.Frame
import proofs.«157971_j30064771072596_1_alg».proof.Proof.Gen.ReferenceIdeal
import proofs.«157971_j30064771072596_1_alg».proof.Proof.Gen.Pre_finite_inputs
import proofs.«157971_j30064771072596_1_alg».proof.Proof.Gen.KernelIdeal.Value
import proofs.«157971_j30064771072596_1_alg».proof.Proof.KernelArray
import proofs.«157971_j30064771072596_1_alg».proof.Proof.HostRows
import Idealize.ShloMosaic.Adequacy
import Idealize.ShloMosaic.Init

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the idealized kernel. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- The ideal pass rewrote no operation. -/
theorem preserves : Cert.preserves_Kernel_KernelIdeal := trivial

/-- From memories agreeing on the arguments both programs end with the network on every row of the flattened images:
    the kernel's sixteen blocks of it (`Cert.KernelIdeal.Whole.run`), the reference's stages read at an entry
    (`Cert.ReferenceIdeal.Rows.result_eq`). -/
theorem algebraic : Cert.algebraic_KernelIdeal_ReferenceIdeal := by
  intro m ρ m' ρ' _ hagree
  refine ⟨fun c => Cert.KernelIdeal.Whole.result m c, Cert.KernelIdeal.Whole.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v18_eq, Cert.ReferenceIdeal.Rows.result_eq]
  obtain ⟨h0, h1, h2, h3, h4, h5, h6⟩ := hagree c
  rw [h0, h1, h2, h3, h4, h5, h6]
  rfl

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
